-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128x64 : Shape := ⟨2, ![128, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_

variable [Facts]

def fn_part1 {F : FTy → Type} [FloatOps F] (main_arg5 : FVec F S128x64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128x128 .f32) (main_arg4 : FVec F S128x64 .f32) (main_arg5 : FVec F S128x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128x64 : Shape := ⟨2, ![128, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S10000x128 : Shape := ⟨2, ![10000, 128]⟩
abbrev S100000x64 : Shape := ⟨2, ![100000, 64]⟩
abbrev S10000x64 : Shape := ⟨2, ![10000, 64]⟩

abbrev nBuf : Space → Nat
  | .hbm => 55
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128x64, .f32⟩
  | .hbm, ⟨5, _⟩ => ⟨S128x64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .f32⟩
  | .hbm, ⟨32, _⟩ => ⟨S_, .f32⟩
  | .hbm, ⟨33, _⟩ => ⟨S100000x128, .f32⟩
  | .hbm, ⟨34, _⟩ => ⟨S1600000x1, .i32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S100000x128, .f32⟩
  | .hbm, ⟨53, _⟩ => ⟨S100000x128, .f32⟩
  | .hbm, ⟨54, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S128x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x64, .f32⟩
  | .local _ .vmem, ⟨13, _⟩ => ⟨S128x64, .f32⟩
  | .local _ .vmem, ⟨14, _⟩ => ⟨S10000x64, .f32⟩
  | .local _ .vmem, ⟨15, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S100000x128.size a
  hwx0_4 : ∀ i : grid0.Coords, EltTy.bits .f32 = 32 ∨ (Rect.block (s := S100000x128) S10000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_v24) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S10000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v37) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128x64 : Shape := ⟨2, ![128, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x64 : Shape := ⟨2, ![100000, 64]⟩

abbrev nBuf : Space → Nat
  | .hbm => 69
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128x64, .f32⟩
  | .hbm, ⟨5, _⟩ => ⟨S128x64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S_, .f32⟩
  | .hbm, ⟨24, _⟩ => ⟨S1600000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S_, .f32⟩
  | .hbm, ⟨39, _⟩ => ⟨S100000x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S_, .f32⟩
  | .hbm, ⟨55, _⟩ => ⟨S1600000, .f32⟩
  | .hbm, ⟨56, _⟩ => ⟨S_, .f32⟩
  | .hbm, ⟨57, _⟩ => ⟨S100000, .f32⟩
  | .hbm, ⟨58, _⟩ => ⟨S1600000x1, .i32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x128, .f32⟩
  | .hbm, ⟨65, _⟩ => ⟨S100000x128, .f32⟩
  | .hbm, ⟨66, _⟩ => ⟨S100000x64, .f32⟩
  | .hbm, ⟨67, _⟩ => ⟨S100000x64, .f32⟩
  | .hbm, ⟨68, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call0_cst : Ref sig .tc := ⟨.hbm, 38, rfl⟩
abbrev main_call0_v0 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.HostStretches.lean ====
/-
  What the two kernel regions find when they are entered.

  Before each region the program aggregates a feature matrix over the edge list: it gathers the source rows, sums them
  into their destination rows, and multiplies every row by the reciprocal of its clamped in-degree (`aggregate`: the
  degree is the segment sum of ones over the destinations, clamped below at one). The first region is entered with the
  aggregate of the input features, the features themselves and the hidden layer's two weight matrices as launched; the
  second with the aggregate of whatever the first region left in the hidden-layer array, that array itself, and the
  output layer's two weight matrices as launched. The second stretch reads the edge columns and the reciprocal degrees
  the first stretch computed: no region writes them, so they are still what the first stretch made of the launch memory.
-/
import proofs.«130391_j50577534878115_1_alg».proof.Proof.Gen.KernelIdeal.Frame
import Idealize.ShloMosaic.Lib.StableHlo.Run
import Idealize.ShloMosaic.PureOps.Ideal

set_option maxRecDepth 16384

noncomputable section

namespace Cert.KernelIdeal.Stretches

open Cert.KernelIdeal Cert.KernelIdeal.Gen
open Idealize.ShloMosaic Idealize.ShloMosaic.TcCoe Idealize.ShloMosaic.StableHlo Idealize.SL.Sem

/-- The source column of the edge list, negative entries wrapped by the number of nodes, as gather start indices. -/
def srcColumn (e : (⟨S2x1600000, .i32⟩ : BufTy).Contents (Elt Ideal)) : (⟨S1600000x1, .i32⟩ : BufTy).Contents (Elt Ideal) :=
  broadcastInDim S1600000x1 ![0] bcast_S1600000_S1600000x1_0
    (select
      (cmpi CmpIPredicate.slt
        (shapeCast S1600000 (extractStridedSlice S1x1600000 ![0, 0] e slices_S2x1600000_S1x1600000_0_0) shapeCasts_S1x1600000_S1600000)
        (broadcastInDim S1600000 ![] bcast_S_S1600000 (constantI S_ 32 0#32)))
      (addi
        (shapeCast S1600000 (extractStridedSlice S1x1600000 ![0, 0] e slices_S2x1600000_S1x1600000_0_0) shapeCasts_S1x1600000_S1600000)
        (broadcastInDim S1600000 ![] bcast_S_S1600000 (constantI S_ 32 100000#32)))
      (shapeCast S1600000 (extractStridedSlice S1x1600000 ![0, 0] e slices_S2x1600000_S1x1600000_0_0) shapeCasts_S1x1600000_S1600000))

/-- The destination column of the edge list, as scatter indices. -/
def dstColumn (e : (⟨S2x1600000, .i32⟩ : BufTy).Contents (Elt Ideal)) : (⟨S1600000x1, .i32⟩ : BufTy).Contents (Elt Ideal) :=
  broadcastInDim S1600000x1 ![0] bcast_S1600000_S1600000x1_0
    (shapeCast S1600000 (extractStridedSlice S1x1600000 ![1, 0] e slices_S2x1600000_S1x1600000_1_0) shapeCasts_S1x1600000_S1600000)

/-- The reciprocal of every node's clamped in-degree. -/
def recipDegree (e : (⟨S2x1600000, .i32⟩ : BufTy).Contents (Elt Ideal)) : FVec Ideal S100000 .f32 :=
  Host.divf (F := Ideal) (broadcastInDim S100000 ![] bcast_S_S100000 (constant (F := Ideal) S_ .f32 0x3F800000#32))
    (maximumf (F := Ideal)
      (Host.scatterAdd (F := Ideal) scatter_S100000_S1600000x1_S1600000_n_0_0_1
        (broadcastInDim S100000 ![] bcast_S_S100000 (constant (F := Ideal) S_ .f32 0x00000000#32))
        (dstColumn e)
        (broadcastInDim S1600000 ![] bcast_S_S1600000 (constant (F := Ideal) S_ .f32 0x3F800000#32)))
      (broadcastInDim S100000 ![] bcast_S_S100000 (constant (F := Ideal) S_ .f32 0x3F800000#32)))

/-- The mean aggregation as this program computes it: the segment sum of the gathered rows, times the reciprocal of the
    row's clamped in-degree. -/
def aggregate (e : (⟨S2x1600000, .i32⟩ : BufTy).Contents (Elt Ideal)) (feat : FVec Ideal S100000x128 .f32) :
    FVec Ideal S100000x128 .f32 :=
  mulf (F := Ideal)
    (Host.scatterAdd (F := Ideal) scatter_S100000x128_S1600000x1_S1600000x128_1_0_0_1
      (broadcastInDim S100000x128 ![] bcast_S_S100000x128 (constant (F := Ideal) S_ .f32 0x00000000#32))
      (dstColumn e)
      (Host.gather gather_S100000x128_S1600000x1_S1600000x128_1_0_n_n_0_1_1128 feat (srcColumn e)))
    (broadcastInDim S100000x128 ![0, 1] bcast_S100000x1_S100000x128_0_1
      (broadcastInDim S100000x1 ![0] bcast_S100000_S100000x1_0 (recipDegree e)))

variable (m : (ℓ : Loc nD τ sig) → Buf (Elt Ideal) ℓ) (ρ : Dev nD → PrngReg)

/-! ## The first region's entry -/

set_option maxHeartbeats 4000000 in
/-- The first region's aggregated operand is the aggregate of the input features. -/
theorem entry0_aggregate (c : Dev nD) :
    V1 m ρ c main_v24 = aggregate (m ((c : Thread nD τ).loc main_arg1)) (m ((c : Thread nD τ).loc main_arg0)) := by
  show StableHlo.after hostOps0 (W0 m ρ c) (Proc.devRef .tc main_v24) = _
  after_results_simp
  rfl

set_option maxHeartbeats 4000000 in
/-- The features are as launched. -/
theorem entry0_features (c : Dev nD) : V1 m ρ c main_arg0 = m ((c : Thread nD τ).loc main_arg0) := by
  show StableHlo.after hostOps0 (W0 m ρ c) (Proc.devRef .tc main_arg0) = _
  after_results_simp

set_option maxHeartbeats 4000000 in
/-- The hidden layer's first weight matrix is as launched. -/
theorem entry0_wl (c : Dev nD) : V1 m ρ c main_arg2 = m ((c : Thread nD τ).loc main_arg2) := by
  show StableHlo.after hostOps0 (W0 m ρ c) (Proc.devRef .tc main_arg2) = _
  after_results_simp

set_option maxHeartbeats 4000000 in
/-- The hidden layer's second weight matrix is as launched. -/
theorem entry0_wr (c : Dev nD) : V1 m ρ c main_arg3 = m ((c : Thread nD τ).loc main_arg3) := by
  show StableHlo.after hostOps0 (W0 m ρ c) (Proc.devRef .tc main_arg3) = _
  after_results_simp

/-! ## The second region's entry -/

set_option maxHeartbeats 8000000 in
/-- The second region's aggregated operand is the aggregate of what the first region left in the hidden-layer array. -/
theorem entry1_aggregate (c : Dev nD) :
    V3 m ρ c main_v37 = aggregate (m ((c : Thread nD τ).loc main_arg1)) (W2 m ρ c (Proc.devRef .tc main_v25)) := by
  show StableHlo.after hostOps1 (W2 m ρ c) (Proc.devRef .tc main_v37) = _
  after_results_simp
  rw [W2_of_ne m ρ c main_v1 (by decide), W2_of_ne m ρ c main_v3 (by decide), W2_of_ne m ρ c main_v12 (by decide)]
  unfold W1
  after_results_simp
  rfl

set_option maxHeartbeats 4000000 in
/-- The hidden-layer array is what the first region left. -/
theorem entry1_hidden (c : Dev nD) : V3 m ρ c main_v25 = W2 m ρ c (Proc.devRef .tc main_v25) := by
  show StableHlo.after hostOps1 (W2 m ρ c) (Proc.devRef .tc main_v25) = _
  after_results_simp

set_option maxHeartbeats 4000000 in
/-- The output layer's first weight matrix is as launched. -/
theorem entry1_wl (c : Dev nD) : V3 m ρ c main_arg4 = m ((c : Thread nD τ).loc main_arg4) := by
  show StableHlo.after hostOps1 (W2 m ρ c) (Proc.devRef .tc main_arg4) = _
  after_results_simp
  rw [W2_of_ne m ρ c main_arg4 (by decide)]
  show StableHlo.after hostOps0 (W0 m ρ c) (Proc.devRef .tc main_arg4) = _
  after_results_simp

set_option maxHeartbeats 4000000 in
/-- The output layer's second weight matrix is as launched. -/
theorem entry1_wr (c : Dev nD) : V3 m ρ c main_arg5 = m ((c : Thread nD τ).loc main_arg5) := by
  show StableHlo.after hostOps1 (W2 m ρ c) (Proc.devRef .tc main_arg5) = _
  after_results_simp
  rw [W2_of_ne m ρ c main_arg5 (by decide)]
  show StableHlo.after hostOps0 (W0 m ρ c) (Proc.devRef .tc main_arg5) = _
  after_results_simp

end Cert.KernelIdeal.Stretches

end
-- ==== Proof.SageLayers.lean ====
/-
  The mathematics of the two-layer mean-aggregation network, stated once over literal shapes and the extended reals.

  A node-feature matrix has 100000 rows of 128 features. One layer takes an aggregated matrix `A` and the features `X`
  themselves and forms, entry by entry, `(A · Wl + X · Wr)`: row `r` of each matrix against column `q` of its weight
  matrix, a sum of 128 products (`rowDot`). The hidden layer clamps that below at zero; the output layer does not.

  The aggregated matrix is a segment sum divided by the clamped degree of its row. One program multiplies by the
  reciprocal of the clamped degree, the other divides by it; a clamped degree is at least one, hence never zero, and off
  zero the extended reals' quotient IS the product with the inverse (`mul_recip_clamped`), infinities included.
-/
import Idealize.ShloMosaic.PureOps.Ideal
import Idealize.ShloMosaic.PureOps.Ideal.Laws
import Idealize.ShloMosaic.Lib.ValueIdx
import Idealize.ShloMosaic.Lib.IdealHost

noncomputable section

open scoped BigOperators

namespace Cert.Sage

open Idealize.ShloMosaic Idealize.ShloMosaic.ValueIdx

/-- Node features: 100000 rows of 128. -/
abbrev SNode : Shape := ⟨2, ![100000, 128]⟩
/-- The hidden layer's weights: 128 by 128. -/
abbrev SWHid : Shape := ⟨2, ![128, 128]⟩
/-- The output layer's weights: 128 by 64. -/
abbrev SWOut : Shape := ⟨2, ![128, 64]⟩
/-- The result: 100000 rows of 64. -/
abbrev SOut : Shape := ⟨2, ![100000, 64]⟩

/-- Row `r` of a node-feature matrix against column `q` of a weight matrix with `d` columns. -/
def rowDot {d : Nat} (A : SNode.Idx → EReal) (W : (⟨2, ![128, d]⟩ : Shape).Idx → EReal) (r : Fin 100000) (q : Fin d) : EReal :=
  ∑ k : Fin 128, A (ix2 r k) * W (ix2 k q)

/-- The hidden layer: `max (A · Wl + X · Wr) 0`, entry by entry (the zero kept as the float pattern both programs print). -/
def hidden (A X : SNode.Idx → EReal) (Wl Wr : SWHid.Idx → EReal) : SNode.Idx → EReal := fun i =>
  max (rowDot A Wl (i 0) (i 1) + rowDot X Wr (i 0) (i 1)) (Ideal.ofBits .f32 0x00000000#32)

/-- The output layer: `A · Wl + H · Wr`, entry by entry. -/
def output (A H : SNode.Idx → EReal) (Wl Wr : SWOut.Idx → EReal) : SOut.Idx → EReal := fun i =>
  rowDot A Wl (i 0) (i 1) + rowDot H Wr (i 0) (i 1)

/-- A degree clamped below at one is not zero. -/
theorem clamped_ne_zero (x : EReal) : max x 1 ≠ 0 :=
  ne_of_gt (lt_of_lt_of_le zero_lt_one (le_max_right x 1))

/-- Multiplying by the reciprocal of a clamped degree is dividing by it: off zero the quotient is the product with the
    inverse, and `1 · d⁻¹ = d⁻¹`. No finiteness is needed: the law holds at the infinities too. -/
theorem mul_recip_clamped (s x : EReal) : s * Ideal.div 1 (max x 1) = Ideal.div s (max x 1) := by
  unfold Ideal.div
  rw [if_neg (clamped_ne_zero x), if_neg (clamped_ne_zero x), one_mul]

end Cert.Sage

end
-- ==== Proof.HiddenRegion.lean ====
/-
  The first layer of the network as one function of the arrays it reads.

  The layer runs over ten row tiles of 10000 nodes. At tile `t` it holds rows `10000 t … 10000 t + 9999` of the aggregated
  matrix and of the features, and the two 128 × 128 weight matrices whole; it forms the two block products, adds them, clamps
  below at zero, and writes the tile of 10000 × 128 entries back to rows `10000 t …` of the result.

  Entry `(p, q)` of a tile is therefore `max (∑ₖ A[10000 t + p, k] · Wl[k, q] + ∑ₖ X[10000 t + p, k] · Wr[k, q]) 0`, which is
  entry `(10000 t + p, q)` of the hidden layer `Cert.Sage.hidden A X Wl Wr`: every tile written is a tile of that ONE array,
  and the ten tiles fill the 100000 rows (row `r` lies in tile `r / 10000`). So the result array ends holding the hidden
  layer, whatever it held before.
-/
import proofs.«130391_j50577534878115_1_alg».proof.Proof.Gen.KernelIdeal.Frame
import proofs.«130391_j50577534878115_1_alg».proof.Proof.SageLayers
import Idealize.ShloMosaic.Lib.Pipeline.Value
import Idealize.ShloMosaic.Lib.ValueIdx
import Idealize.ShloMosaic.PureOps.Ideal.Laws

set_option maxRecDepth 16384
noncomputable section
namespace Cert.KernelIdeal.HiddenRegion
open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## One block product at an entry

A tile of 10000 rows times a 128 × 128 matrix contracts the tile's axis 1 against the matrix's axis 0. At output entry
`i` and contraction index `q` the left factor is read at `(i 0, q)` and the right at `(q, i 1)`: four coordinate facts,
one per operand axis. -/

/-- The left operand's row is the output's row. -/
theorem lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- The left operand's column is the contraction index. -/
theorem lhs_contracted (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand's row is the contraction index. -/
theorem rhs_contracted (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- The right operand's column is the output's column. -/
theorem rhs_column (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A block product into a zero accumulator, at entry `(p, q)`: row `p` of the tile against column `q` of the matrix, a
    sum of 128 products indexed by the contracted coordinate itself. -/
theorem product_at (A : FVec Ideal S10000x128 .bf16) (W : FVec Ideal S128x128 .bf16) (p : Fin 10000) (q : Fin 128) :
    matmul dot_S10000x128_S128x128_S10000x128_1_0_0_1_n_n none A W (constant (F := Ideal) S10000x128 .f32 0x00000000#32) (ix2 p q)
      = ∑ k : Fin 128, A (ix2 p k) * W (ix2 k q) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_row _ _
    | ⟨1, _⟩ => exact (lhs_contracted _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs_contracted _ _).trans hk
    | ⟨1, _⟩ => exact rhs_column _ _)
  rw [el, er]

/-- What the layer computes from its four blocks, at entry `(p, q)` of the tile: the two row-by-column sums added, clamped
    below at zero. The narrowing casts are the identity on ideal values, and so is the cast of a tile to its own shape. -/
theorem payload_at (x0 x1 : Vec Ideal S10000x128 .f32) (x2 x3 : Vec Ideal S128x128 .f32) (p : Fin 10000) (q : Fin 128) :
    k0_pay1 (F := Ideal) x0 x1 x2 x3 (ix2 p q)
      = max ((∑ k : Fin 128, (x0 (ix2 p k) : EReal) * x2 (ix2 k q)) + (∑ k : Fin 128, (x1 (ix2 p k) : EReal) * x3 (ix2 k q)))
          (Ideal.ofBits .f32 0x00000000#32) := by
  unfold k0_pay1
  refine (maximumf_apply _ _ _).trans ?_
  refine congrArg₂ max ?_ rfl
  refine (addf_apply _ _ _).trans ?_
  refine congrArg₂ (· + ·) ?_ ?_
  · refine (product_at _ _ p q).trans ?_
    rw [shapeCast_self]
    rfl
  · exact product_at _ _ p q

variable (V : (c : Dev nD) → (b : Ref sig .tc) → Buf (Elt Ideal) ((c : Thread nD τ).loc b))

/-! ## Where each window's block sits

At tile `t` the aggregated matrix, the features and the result are all at row block `t`, column block 0; both weight
matrices are at block `(0, 0)`. An element of a block sits in its array, on each axis, at block index × block size + its
coordinate inside the block. -/

/-- The zero offsets of a whole-tile access, as a constant function. -/
theorem zero_offsets : (![0, 0] : Fin 2 → Nat) = fun _ => 0 := funext fun a => by fin_cases a <;> rfl

/-- The five block-index maps over the ten tiles: the two node matrices move with the result down the rows, the weights stay
    put, no column block other than 0 occurs, and the result's row block is at most 9. -/
theorem block_indices : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 9 :=
  (by decide +kernel : ∀ t : Fin grid0.N, _)

/-- Each of the ten row blocks of the result is some tile's. -/
theorem every_row_block : ∀ b : Fin 10, ∃ t : Fin cfg0.N, win0_4.index t (0 : Fin 2) = b.val :=
  (by decide +kernel : ∀ b : Fin 10, ∃ t : Fin grid0.N, win0_4.index t (0 : Fin 2) = b.val)

/-- Entry `(p, k)` of the aggregated matrix's block at tile `t` is entry `(r, k)` of the matrix, `r` the row `10000 t + p`. -/
theorem aggregated_block (c : Dev nD) (t : Fin cfg0.N) (p : Fin 10000) (k : Fin 128) (r : Fin 100000)
    (hr : r.val = win0_4.index t (0 : Fin 2) * 10000 + p.val) :
    (iblk0 V c 0 t : Vec Ideal S10000x128 .f32) (ix2 p k) = (V c main_v24 : S100000x128.Idx → EReal) (ix2 r k) := by
  obtain ⟨e0, e1, -⟩ := block_indices t
  unfold iblk0
  rw [View.read_apply]
  show V c main_v24 (((cfg0.win 0).blk t).view.emb (ix2 p k)) = V c main_v24 (ix2 r k)
  congr 1
  funext a
  apply Fin.ext
  match a with
  | ⟨0, _⟩ => show win0_0.index t (0 : Fin 2) * 10000 + 1 * p.val = r.val; omega
  | ⟨1, _⟩ => show win0_0.index t (1 : Fin 2) * 128 + 1 * k.val = k.val; omega

/-- Entry `(p, k)` of the features' block at tile `t` is entry `(r, k)` of the features, `r` the row `10000 t + p`. -/
theorem features_block (c : Dev nD) (t : Fin cfg0.N) (p : Fin 10000) (k : Fin 128) (r : Fin 100000)
    (hr : r.val = win0_4.index t (0 : Fin 2) * 10000 + p.val) :
    (iblk0 V c 1 t : Vec Ideal S10000x128 .f32) (ix2 p k) = (V c main_arg0 : S100000x128.Idx → EReal) (ix2 r k) := by
  obtain ⟨-, -, e0, e1, -⟩ := block_indices t
  unfold iblk0
  rw [View.read_apply]
  show V c main_arg0 (((cfg0.win 1).blk t).view.emb (ix2 p k)) = V c main_arg0 (ix2 r k)
  congr 1
  funext a
  apply Fin.ext
  match a with
  | ⟨0, _⟩ => show win0_1.index t (0 : Fin 2) * 10000 + 1 * p.val = r.val; omega
  | ⟨1, _⟩ => show win0_1.index t (1 : Fin 2) * 128 + 1 * k.val = k.val; omega

/-- The first weight matrix is staged whole: its block's entry `(k, q)` is the matrix's. -/
theorem left_weights_block (c : Dev nD) (t : Fin cfg0.N) (k q q' : Fin 128) (hq : q'.val = q.val) :
    (iblk0 V c 2 t : Vec Ideal S128x128 .f32) (ix2 k q) = (V c main_arg2 : S128x128.Idx → EReal) (ix2 k q') := by
  obtain ⟨-, -, -, -, e0, e1, -⟩ := block_indices t
  unfold iblk0
  rw [View.read_apply]
  show V c main_arg2 (((cfg0.win 2).blk t).view.emb (ix2 k q)) = V c main_arg2 (ix2 k q')
  congr 1
  funext a
  apply Fin.ext
  match a with
  | ⟨0, _⟩ => show win0_2.index t (0 : Fin 2) * 128 + 1 * k.val = k.val; omega
  | ⟨1, _⟩ => show win0_2.index t (1 : Fin 2) * 128 + 1 * q.val = q'.val; omega

/-- The second weight matrix is staged whole: its block's entry `(k, q)` is the matrix's. -/
theorem right_weights_block (c : Dev nD) (t : Fin cfg0.N) (k q q' : Fin 128) (hq : q'.val = q.val) :
    (iblk0 V c 3 t : Vec Ideal S128x128 .f32) (ix2 k q) = (V c main_arg3 : S128x128.Idx → EReal) (ix2 k q') := by
  obtain ⟨-, -, -, -, -, -, e0, e1, -⟩ := block_indices t
  unfold iblk0
  rw [View.read_apply]
  show V c main_arg3 (((cfg0.win 3).blk t).view.emb (ix2 k q)) = V c main_arg3 (ix2 k q')
  congr 1
  funext a
  apply Fin.ext
  match a with
  | ⟨0, _⟩ => show win0_3.index t (0 : Fin 2) * 128 + 1 * k.val = k.val; omega
  | ⟨1, _⟩ => show win0_3.index t (1 : Fin 2) * 128 + 1 * q.val = q'.val; omega

/-! ## What one grid point writes back -/

/-- The result's tiles are whole blocks: an index of what is written back is the same index of the block. -/
theorem block_index_self (t : Fin cfg0.N) (p : Fin 10000) (q : Fin 128) :
    win0_4.xinj (grid0.coords t) (ix2 p q) = ix2 p q :=
  funext fun a => Fin.ext (by match a with | ⟨0, _⟩ => rfl | ⟨1, _⟩ => rfl)

/-- WHAT TILE `t` WRITES BACK is tile `t` of the hidden layer of the arrays the layer reads: entry `(p, q)` written is the
    clamped sum of the two row-by-column products at row `10000 t + p`, column `q`. -/
theorem flushed_eq (c : Dev nD) (t : Fin cfg0.N) :
    (dat0 (F := Ideal) V c).flushed 4 t
      = ((cfg0.win 4).blk t).view.read (Elt Ideal)
          (Cert.Sage.hidden (V c main_v24) (V c main_arg0) (V c main_arg2) (V c main_arg3)) := by
  show (cfg0.win 4).cut (grid0.coords t) ((dat0 V c).after 4 t) = _
  rw [after0_4]
  unfold out0_4
  rw [View.canon_unit_zero zero_offsets]
  simp only [View.ld_unit_zero (S := S10000x128) zero_offsets, View.ld_unit_zero (S := S128x128) zero_offsets]
  funext j
  obtain ⟨p, q, rfl⟩ : ∃ (p : Fin 10000) (q : Fin 128), j = ix2 p q := ⟨j 0, j 1, eq_ix2 j⟩
  show k0_pay1 (F := Ideal) (iblk0 V c 0 t) (iblk0 V c 1 t) (iblk0 V c 2 t) (iblk0 V c 3 t) (win0_4.xinj (grid0.coords t) (ix2 p q))
      = Cert.Sage.hidden (V c main_v24) (V c main_arg0) (V c main_arg2) (V c main_arg3) (((cfg0.win 4).blk t).view.emb (ix2 p q))
  rw [block_index_self]
  refine (payload_at _ _ _ _ p q).trans ?_
  obtain ⟨-, -, -, -, -, -, -, -, e1, -⟩ := block_indices t
  have hr : ((((cfg0.win 4).blk t).view.emb (ix2 p q)) 0).val = win0_4.index t (0 : Fin 2) * 10000 + p.val := by
    show win0_4.index t (0 : Fin 2) * 10000 + 1 * p.val = _; omega
  have hq : ((((cfg0.win 4).blk t).view.emb (ix2 p q)) 1).val = q.val := by
    show win0_4.index t (1 : Fin 2) * 128 + 1 * q.val = _; omega
  generalize ((cfg0.win 4).blk t).view.emb (ix2 p q) = i at hr hq
  unfold Cert.Sage.hidden Cert.Sage.rowDot
  refine congrArg₂ max (congrArg₂ (· + ·) (Finset.sum_congr rfl fun k _ => ?_) (Finset.sum_congr rfl fun k _ => ?_)) rfl
  · exact congrArg₂ (· * ·) (aggregated_block V c t p k (i 0) hr) (left_weights_block V c t k q (i 1) hq)
  · exact congrArg₂ (· * ·) (features_block V c t p k (i 0) hr) (right_weights_block V c t k q (i 1) hq)

/-! ## The blocks fill the array -/

/-- An index of the result is in tile `t`'s block iff each coordinate is in the block's range on its axis. -/
theorem mem_row_block (t : Fin cfg0.N) (i : S100000x128.Idx) :
    i ∈ ((cfg0.win 4).blk t).view.set
      ↔ ∀ a : Fin 2, win0_4.index t a * S10000x128.size a ≤ (i a).val ∧ (i a).val < win0_4.index t a * S10000x128.size a + S10000x128.size a := by
  show i ∈ ((View.whole main_v25).slice (win0_4.rect t)).set ↔ _
  rw [View.set_slice_whole, Rect.mem_set_unit]
  exact Iff.rfl

/-- Every index of the result is in some tile's block: row `r` in tile `r / 10000`, every column in column block 0. -/
theorem covered (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ := every_row_block ⟨(i 0).val / 10000, by omega⟩
  have ht' : win0_4.index t (0 : Fin 2) = (i 0).val / 10000 := ht
  obtain ⟨-, -, -, -, -, -, -, -, e1, -⟩ := block_indices t
  refine ⟨t, flush0_4 t, ?_⟩
  rw [mem_row_block]
  intro a
  match a with
  | ⟨0, _⟩ => show win0_4.index t (0 : Fin 2) * 10000 ≤ (i 0).val ∧ (i 0).val < win0_4.index t (0 : Fin 2) * 10000 + 10000; omega
  | ⟨1, _⟩ => show win0_4.index t (1 : Fin 2) * 128 ≤ (i 1).val ∧ (i 1).val < win0_4.index t (1 : Fin 2) * 128 + 128; omega

/-! ## The array the region leaves -/

/-- The result array after the ten tiles is the hidden layer of the aggregated matrix, the features and the two weight
    matrices as the layer found them. -/
theorem array_eq (c : Dev nD) :
    (dat0 (F := Ideal) V c).arrAt 4 cfg0.N
      = Cert.Sage.hidden (V c main_v24) (V c main_arg0) (V c main_arg2) (V c main_arg3) :=
  (dat0 V c).arrAt_eq_of_cover 4 _ (fun t _ => flushed_eq V c t) covered

end Cert.KernelIdeal.HiddenRegion
end
-- ==== Proof.OutputRegion.lean ====
/-
  The output layer's region of the idealized kernel program, read as one array.

  The region's grid has ten points. Point `t` is handed rows `10000 t … 10000 t + 9999` of the aggregated hidden matrix
  and of the hidden matrix, together with both whole 128 by 64 weight matrices, and writes the same rows of the result:
  entry `(p, q)` of its block is row `p` of the first block against column `q` of the first weights plus row `p` of the
  second block against column `q` of the second weights — two sums of 128 products. (Over the extended reals the casts to
  the short float are the identity, and each product sum is accumulated into zero.) The ten row blocks fill the 100000 rows
  of the result, so the array the region leaves is `Cert.Sage.output` of the four arrays it found.
-/
import proofs.«130391_j50577534878115_1_alg».proof.Proof.Gen.KernelIdeal.Frame
import proofs.«130391_j50577534878115_1_alg».proof.Proof.SageLayers
import Idealize.ShloMosaic.Lib.Pipeline.Value
import Idealize.ShloMosaic.Lib.ValueIdx
import Idealize.ShloMosaic.PureOps.Ideal.Laws

set_option maxRecDepth 16384
noncomputable section
namespace Cert.KernelIdeal.OutputRegion
open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The block index maps, decided over the ten grid points -/

/-- The zero offsets of a whole-buffer access, as a constant function. -/
theorem offsets_zero : (![0, 0] : Fin 2 → Nat) = fun _ => 0 := funext fun a => by fin_cases a <;> rfl

/-- Both row-blocked inputs move with the output's row block and sit at column block 0; the weights stay at block (0, 0);
    the output's column block is 0 and its row block is at most 9. -/
theorem block_indices : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 9 :=
  (by decide +kernel : ∀ t : Fin grid1.N, _)

/-- Every one of the ten row blocks of the result is some grid point's. -/
theorem row_block_onto : ∀ q : Fin 10, ∃ t : Fin cfg1.N, win1_4.index t = ![q.val, 0] :=
  (by decide +kernel : ∀ q : Fin 10, ∃ t : Fin grid1.N, win1_4.index t = ![q.val, 0])

/-! ## One block's product at an entry -/

/-- The left operand's row is the entry's row. -/
theorem lhs_row (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
/-- The left operand's column is the summation index. -/
theorem lhs_col (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
/-- The right operand's row is the summation index. -/
theorem rhs_row (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
/-- The right operand's column is the entry's column. -/
theorem rhs_col (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- A 10000 by 128 block times a 128 by 64 matrix, accumulated into zero: entry `(p, q)` is the sum over `k` of
    `a (p, k) · w (k, q)`. -/
theorem product_entry {φ₁ φ₂ : FTy} (a : FVec Ideal S10000x128 φ₁) (w : FVec Ideal S128x64 φ₂) (p : Fin 10000) (q : Fin 64) :
    FloatOps.matmul dot_S10000x128_S128x64_S10000x64_1_0_0_1_n_n none a w (constant (F := Ideal) S10000x64 .f32 0x00000000#32) (ix2 p q)
      = ∑ k : Fin 128, a (ix2 p k) * w (ix2 k q) := by
  refine (Ideal.matmul_constant_zero_apply dot_S10000x128_S128x64_S10000x64_1_0_0_1_n_n none a w (ix2 p q)).trans ?_
  rw [← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k := funext fun d => Fin.ext (by
    match d with
    | ⟨0, _⟩ => exact lhs_row _ _
    | ⟨1, _⟩ => exact (lhs_col _ _).trans hk)
  have er : dot_S10000x128_S128x64_S10000x64_1_0_0_1_n_n.rhsIdx (ix2 p q) ((contrEquiv1 dot_S10000x128_S128x64_S10000x64_1_0_0_1_n_n 128 rfl rfl).symm k) = ix2 k q := funext fun d => Fin.ext (by
    match d with
    | ⟨0, _⟩ => exact (rhs_row _ _).trans hk
    | ⟨1, _⟩ => exact rhs_col _ _)
  rw [el, er]

/-- The value the body stores, at entry `(p, q)` of its block: the first block's row against the first weights' column
    plus the second block's row against the second weights' column. -/
theorem payload_entry (x0 x1 : Vec Ideal S10000x128 .f32) (x2 x3 : Vec Ideal S128x64 .f32) (p : Fin 10000) (q : Fin 64) :
    k1_pay1 (F := Ideal) x0 x1 x2 x3 (ix2 p q)
      = (∑ k : Fin 128, x0 (ix2 p k) * x2 (ix2 k q)) + (∑ k : Fin 128, x1 (ix2 p k) * x3 (ix2 k q)) := by
  unfold k1_pay1
  refine (addf_apply _ _ (ix2 p q)).trans ?_
  refine congrArg₂ (· + ·) ((product_entry _ _ p q).trans ?_) ((product_entry _ _ p q).trans ?_)
  · refine Finset.sum_congr rfl fun k _ => ?_
    rw [truncf_apply, truncf_apply, shapeCast_self]
  · refine Finset.sum_congr rfl fun k _ => ?_
    rw [truncf_apply, truncf_apply, shapeCast_self]

variable (V : (c : Dev nD) → (b : Ref sig .tc) → Buf (Elt Ideal) ((c : Thread nD τ).loc b))

/-! ## The input blocks as rows of the arrays the region finds -/

/-- The first input's block at point `t` holds rows `10000 · (row block) + p` of the aggregated hidden matrix. -/
theorem aggregated_block (c : Dev nD) (t : Fin cfg1.N) (p : Fin 10000) (k : Fin 128) (r : Fin 100000)
    (hr : r.val = win1_4.index t (0 : Fin 2) * 10000 + p.val) :
    (iblk1 (F := Ideal) V c 0 t : Vec Ideal S10000x128 .f32) (ix2 p k) = (V c main_v37 : S100000x128.Idx → EReal) (ix2 r k) := by
  obtain ⟨e0, e1, -⟩ := block_indices t
  show V c main_v37 (((cfg1.win 0).blk t).view.emb (ix2 p k)) = V c main_v37 (ix2 r k)
  congr 1
  funext a
  apply Fin.ext
  match a with
  | ⟨0, _⟩ => show win1_0.index t (0 : Fin 2) * 10000 + 1 * p.val = r.val; omega
  | ⟨1, _⟩ => show win1_0.index t (1 : Fin 2) * 128 + 1 * k.val = k.val; omega

/-- The second input's block at point `t` holds the same rows of the hidden matrix. -/
theorem hidden_block (c : Dev nD) (t : Fin cfg1.N) (p : Fin 10000) (k : Fin 128) (r : Fin 100000)
    (hr : r.val = win1_4.index t (0 : Fin 2) * 10000 + p.val) :
    (iblk1 (F := Ideal) V c 1 t : Vec Ideal S10000x128 .f32) (ix2 p k) = (V c main_v25 : S100000x128.Idx → EReal) (ix2 r k) := by
  obtain ⟨-, -, e2, e3, -⟩ := block_indices t
  show V c main_v25 (((cfg1.win 1).blk t).view.emb (ix2 p k)) = V c main_v25 (ix2 r k)
  congr 1
  funext a
  apply Fin.ext
  match a with
  | ⟨0, _⟩ => show win1_1.index t (0 : Fin 2) * 10000 + 1 * p.val = r.val; omega
  | ⟨1, _⟩ => show win1_1.index t (1 : Fin 2) * 128 + 1 * k.val = k.val; omega

/-- The third input's block is the whole first weight matrix at every point. -/
theorem left_weights_block (c : Dev nD) (t : Fin cfg1.N) (k : Fin 128) (q : Fin 64) :
    (iblk1 (F := Ideal) V c 2 t : Vec Ideal S128x64 .f32) (ix2 k q) = (V c main_arg4 : S128x64.Idx → EReal) (ix2 k q) := by
  obtain ⟨-, -, -, -, e4, e5, -⟩ := block_indices t
  show V c main_arg4 (((cfg1.win 2).blk t).view.emb (ix2 k q)) = V c main_arg4 (ix2 k q)
  congr 1
  funext a
  apply Fin.ext
  match a with
  | ⟨0, _⟩ => show win1_2.index t (0 : Fin 2) * 128 + 1 * k.val = k.val; omega
  | ⟨1, _⟩ => show win1_2.index t (1 : Fin 2) * 64 + 1 * q.val = q.val; omega

/-- The fourth input's block is the whole second weight matrix at every point. -/
theorem right_weights_block (c : Dev nD) (t : Fin cfg1.N) (k : Fin 128) (q : Fin 64) :
    (iblk1 (F := Ideal) V c 3 t : Vec Ideal S128x64 .f32) (ix2 k q) = (V c main_arg5 : S128x64.Idx → EReal) (ix2 k q) := by
  obtain ⟨-, -, -, -, -, -, e6, e7, -⟩ := block_indices t
  show V c main_arg5 (((cfg1.win 3).blk t).view.emb (ix2 k q)) = V c main_arg5 (ix2 k q)
  congr 1
  funext a
  apply Fin.ext
  match a with
  | ⟨0, _⟩ => show win1_3.index t (0 : Fin 2) * 128 + 1 * k.val = k.val; omega
  | ⟨1, _⟩ => show win1_3.index t (1 : Fin 2) * 64 + 1 * q.val = q.val; omega

/-! ## What a grid point writes back -/

/-- Point `t` writes back its row block of the output layer of the arrays the region finds. -/
theorem block_written (c : Dev nD) (t : Fin cfg1.N) :
    (dat1 (F := Ideal) V c).flushed 4 t
      = ((cfg1.win 4).blk t).view.read (Elt Ideal) (Cert.Sage.output (V c main_v37) (V c main_v25) (V c main_arg4) (V c main_arg5)) := by
  show (cfg1.win 4).cut (grid1.coords t) ((dat1 (F := Ideal) V c).after 4 t) = _
  rw [after1_4]
  unfold out1_4
  rw [View.canon_unit_zero offsets_zero]
  simp only [View.ld_unit_zero (S := S10000x128) offsets_zero, View.ld_unit_zero (S := S128x64) offsets_zero]
  funext j
  obtain ⟨p, q, rfl⟩ : ∃ (p : Fin 10000) (q : Fin 64), j = ix2 p q := ⟨j 0, j 1, eq_ix2 j⟩
  show k1_pay1 (F := Ideal) (iblk1 V c 0 t) (iblk1 V c 1 t) (iblk1 V c 2 t) (iblk1 V c 3 t) (ix2 p q)
    = Cert.Sage.output (V c main_v37) (V c main_v25) (V c main_arg4) (V c main_arg5) (((cfg1.win 4).blk t).view.emb (ix2 p q))
  obtain ⟨-, -, -, -, -, -, -, -, e8, -⟩ := block_indices t
  have hrow : ((((cfg1.win 4).blk t).view.emb (ix2 p q)) 0).val = win1_4.index t (0 : Fin 2) * 10000 + p.val := by
    show win1_4.index t (0 : Fin 2) * 10000 + 1 * p.val = _; omega
  have hcol : ((((cfg1.win 4).blk t).view.emb (ix2 p q)) 1).val = q.val := by
    show win1_4.index t (1 : Fin 2) * 64 + 1 * q.val = _; omega
  have hq : ((((cfg1.win 4).blk t).view.emb (ix2 p q)) 1 : Fin 64) = q := Fin.ext hcol
  refine (payload_entry _ _ _ _ p q).trans ?_
  unfold Cert.Sage.output Cert.Sage.rowDot
  refine congrArg₂ (· + ·) (Finset.sum_congr rfl fun k _ => ?_) (Finset.sum_congr rfl fun k _ => ?_)
  · exact congrArg₂ (· * ·) (aggregated_block V c t p k _ hrow)
      ((left_weights_block V c t k q).trans (congrArg (fun z : Fin 64 => (V c main_arg4 : S128x64.Idx → EReal) (ix2 k z)) hq.symm))
  · exact congrArg₂ (· * ·) (hidden_block V c t p k _ hrow)
      ((right_weights_block V c t k q).trans (congrArg (fun z : Fin 64 => (V c main_arg5 : S128x64.Idx → EReal) (ix2 k z)) hq.symm))

/-! ## The ten row blocks fill the result -/

/-- An index of the result is in point `t`'s block iff each coordinate is in the block's range on its axis. -/
theorem mem_row_block (t : Fin cfg1.N) (i : S100000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v38).slice (win1_4.rect t)).set ↔ _
  rw [View.set_slice_whole, Rect.mem_set_unit]
  exact Iff.rfl

/-- Row `r` of the result lies in the block of the point whose row block is `r / 10000`; every point writes back. -/
theorem rows_covered (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ := row_block_onto ⟨(i 0).val / 10000, by omega⟩
  have q0 : win1_4.index t (0 : Fin 2) = (i 0).val / 10000 := congrFun ht 0
  have q1 : win1_4.index t (1 : Fin 2) = 0 := congrFun ht 1
  refine ⟨t, flush1_4 t, ?_⟩
  rw [mem_row_block]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 64 ≤ (i 1).val ∧ (i 1).val < win1_4.index t (1 : Fin 2) * 64 + 64; omega

/-! ## The array the region leaves -/

/-- After the region the result array is the output layer of the aggregated hidden matrix, the hidden matrix and the two
    weight matrices as the region found them. -/
theorem array_eq (c : Dev nD) :
    (dat1 (F := Ideal) V c).arrAt 4 cfg1.N
      = Cert.Sage.output (V c main_v37) (V c main_v25) (V c main_arg4) (V c main_arg5) :=
  (dat1 (F := Ideal) V c).arrAt_eq_of_cover 4 _ (fun t _ => block_written V c t) rows_covered

end Cert.KernelIdeal.OutputRegion
end
-- ==== Proof.KernelResult.lean ====
/-
  What the idealized kernel program ends with.

  The first region leaves in the hidden-layer array the hidden layer of the aggregate of the input features (its four
  operands are what the first host stretch made: the aggregate, and the features and two weight matrices as launched).
  The second host stretch aggregates that array; the second region leaves in the result array the output layer of that
  aggregate, the hidden layer and the last two weight matrices. The program's run, with the result array named, then
  ends at this one function of the launch memory.
-/
import proofs.«130391_j50577534878115_1_alg».proof.Proof.KernelRun
import proofs.«130391_j50577534878115_1_alg».proof.Proof.HostStretches
import proofs.«130391_j50577534878115_1_alg».proof.Proof.HiddenRegion
import proofs.«130391_j50577534878115_1_alg».proof.Proof.OutputRegion
import proofs.«130391_j50577534878115_1_alg».proof.Proof.SageLayers

set_option maxRecDepth 16384

noncomputable section

namespace Cert.KernelIdeal.Result

open Cert.KernelIdeal Cert.KernelIdeal.Gen Cert.KernelIdeal.Stretches
open Idealize.ShloMosaic Idealize.ShloMosaic.TcCoe Idealize.SL.Sem

variable (m : (ℓ : Loc nD τ sig) → Buf (Elt Ideal) ℓ) (ρ : Dev nD → PrngReg)

/-- The hidden layer as a function of the launch memory. -/
def hiddenOf (c : Dev nD) : Cert.Sage.SNode.Idx → EReal :=
  Cert.Sage.hidden (aggregate (m ((c : Thread nD τ).loc main_arg1)) (m ((c : Thread nD τ).loc main_arg0)))
    (m ((c : Thread nD τ).loc main_arg0)) (m ((c : Thread nD τ).loc main_arg2)) (m ((c : Thread nD τ).loc main_arg3))

/-- The result as a function of the launch memory. -/
def resultOf (c : Dev nD) : Cert.Sage.SOut.Idx → EReal :=
  Cert.Sage.output (aggregate (m ((c : Thread nD τ).loc main_arg1)) (hiddenOf m c)) (hiddenOf m c)
    (m ((c : Thread nD τ).loc main_arg4)) (m ((c : Thread nD τ).loc main_arg5))

/-- After the first region the hidden-layer array holds the hidden layer. -/
theorem hidden_array (c : Dev nD) : W2 m ρ c (Proc.devRef .tc main_v25) = hiddenOf m c := by
  refine (W2_arr m ρ c 4).trans ((Cert.KernelIdeal.HiddenRegion.array_eq (V1 m ρ) c).trans ?_)
  rw [entry0_aggregate m ρ c, entry0_features m ρ c, entry0_wl m ρ c, entry0_wr m ρ c]
  rfl

/-- After the second region the result array holds the output layer. -/
theorem result_array (c : Dev nD) : W4 m ρ c (Proc.devRef .tc main_v38) = resultOf m c := by
  refine (W4_arr m ρ c 4).trans ((Cert.KernelIdeal.OutputRegion.array_eq (V3 m ρ) c).trans ?_)
  rw [entry1_aggregate m ρ c, entry1_hidden m ρ c, entry1_wl m ρ c, entry1_wr m ρ c, hidden_array m ρ c]
  rfl

/-- The run of the idealized kernel program: it terminates, nothing faulting, with the result array at `resultOf` of the
    launch memory and the six arguments as launched. -/
theorem run : θ_run defs (onTc (τ := τ) (main (F := Ideal))) ⟨m, fun _ => 0, ρ⟩ (fun r => ∀ c : Dev nD,
      r.2.mem ((c.tc : Thread nD τ).loc main_v38) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_array m ρ c), (h c).2⟩)
    (Cert.KernelIdeal.Named.run_named m ρ)

end Cert.KernelIdeal.Result

end
-- ==== Proof.ReferenceLayers.lean ====
/-
  The reference program's stages, read at the extended reals, are the two layers of the specification over the
  reference's own mean-aggregated matrix.

  The reference aggregates a feature matrix over the edge list (a segment sum divided by the clamped degree) and then
  forms the aggregate times one weight matrix plus the features times another. Each matrix product, read at an entry,
  is the sum over the 128 contracted positions of row entry times column entry, which is the specification's row-by-column
  sum once the two index functions are written by coordinates. The first layer ends in a maximum with the zero word.
  The second layer's aggregation is built from operations that are, one by one, the first aggregation's operations
  under other names, applied to the hidden layer; so it is the same aggregation function at the hidden layer, and the
  aggregation itself is never opened.
-/
import proofs.«130391_j50577534878115_1_alg».proof.Proof.Gen.ReferenceIdeal.Read
import proofs.«130391_j50577534878115_1_alg».proof.Proof.SageLayers
import Idealize.ShloMosaic.Lib.ValueIdx
import Idealize.ShloMosaic.PureOps.Ideal.Laws

set_option maxRecDepth 16384
noncomputable section
namespace Cert.ReferenceIdeal.Layers
open Cert.ReferenceIdeal Cert.ReferenceIdeal.Read
open Idealize.ShloMosaic Idealize.ShloMosaic.TcCoe Idealize.ShloMosaic.ValueIdx

/-! ## The contraction's index functions, by coordinates -/

/-- Left operand of a 128-column product at entry i, position k: row (i 0), column k. -/
theorem lidx_hid_agg (i : S100000x128.Idx) (k : Fin 128) : lidx_main_v23 i k = ix2 (i 0) k := by
  funext a; match a with | ⟨0, _⟩ => rfl | ⟨1, _⟩ => rfl
/-- Right operand: row k, column (i 1). -/
theorem ridx_hid_agg (i : S100000x128.Idx) (k : Fin 128) : ridx_main_v23 i k = ix2 k (i 1) := by
  funext a; match a with | ⟨0, _⟩ => rfl | ⟨1, _⟩ => rfl
theorem lidx_hid_self (i : S100000x128.Idx) (k : Fin 128) : lidx_main_v24 i k = ix2 (i 0) k := by
  funext a; match a with | ⟨0, _⟩ => rfl | ⟨1, _⟩ => rfl
theorem ridx_hid_self (i : S100000x128.Idx) (k : Fin 128) : ridx_main_v24 i k = ix2 k (i 1) := by
  funext a; match a with | ⟨0, _⟩ => rfl | ⟨1, _⟩ => rfl
theorem lidx_out_agg (i : S100000x64.Idx) (k : Fin 128) : lidx_main_v46 i k = ix2 (i 0) k := by
  funext a; match a with | ⟨0, _⟩ => rfl | ⟨1, _⟩ => rfl
theorem ridx_out_agg (i : S100000x64.Idx) (k : Fin 128) : ridx_main_v46 i k = ix2 k (i 1) := by
  funext a; match a with | ⟨0, _⟩ => rfl | ⟨1, _⟩ => rfl
theorem lidx_out_self (i : S100000x64.Idx) (k : Fin 128) : lidx_main_v47 i k = ix2 (i 0) k := by
  funext a; match a with | ⟨0, _⟩ => rfl | ⟨1, _⟩ => rfl
theorem ridx_out_self (i : S100000x64.Idx) (k : Fin 128) : ridx_main_v47 i k = ix2 k (i 1) := by
  funext a; match a with | ⟨0, _⟩ => rfl | ⟨1, _⟩ => rfl

variable (x0 : (⟨S100000x128, .f32⟩ : BufTy).Contents (Elt Ideal)) (x1 : (⟨S2x1600000, .i32⟩ : BufTy).Contents (Elt Ideal))
  (x2 x3 : (⟨S128x128, .f32⟩ : BufTy).Contents (Elt Ideal)) (x4 x5 : (⟨S128x64, .f32⟩ : BufTy).Contents (Elt Ideal))

/-! ## The hidden layer -/

theorem hidden_eq :
    val_main_v26 (F := Ideal) x0 x1 x2 x3 = Cert.Sage.hidden (val_main_v22 (F := Ideal) x0 x1) x0 x2 x3 := by
  funext i
  rw [val_main_v26_apply, val_main_v25_apply, val_main_v23_apply, val_main_v24_apply, val_main_call0_v0_apply,
    val_main_call0_cst_apply]
  unfold Cert.Sage.hidden Cert.Sage.rowDot
  generalize val_main_v22 (F := Ideal) x0 x1 = A
  simp only [Ideal.maximumf_def, Ideal.addf_def, Ideal.ofBits_def, lidx_hid_agg, ridx_hid_agg, lidx_hid_self,
    ridx_hid_self]
  rfl

/-! ## The second aggregation is the first, at the hidden layer -/

/-- The zero the index test compares against. -/
theorem zero_idx_eq : val_main_v27 (F := Ideal) = val_main_v4 (F := Ideal) := by
  unfold val_main_v27 val_main_v4 val_main_c_4 val_main_c; rfl
/-- The node count added to a negative index. -/
theorem count_idx_eq : val_main_v29 (F := Ideal) = val_main_v6 (F := Ideal) := by
  unfold val_main_v29 val_main_v6 val_main_c_5 val_main_c_0; rfl
/-- The source column, wrapped into range. -/
theorem src_wrapped_eq : val_main_v31 (F := Ideal) x1 = val_main_v8 (F := Ideal) x1 := by
  unfold val_main_v31 val_main_v8 val_main_v28 val_main_v5 val_main_v30 val_main_v7
  rw [zero_idx_eq, count_idx_eq]
/-- The source column as a column of start indices. -/
theorem src_col_eq : val_main_v32 (F := Ideal) x1 = val_main_v9 (F := Ideal) x1 := by
  unfold val_main_v32 val_main_v9; rw [src_wrapped_eq]
/-- The target column as a column of scatter indices. -/
theorem dst_col_eq : val_main_v35 (F := Ideal) x1 = val_main_v12 (F := Ideal) x1 := by
  unfold val_main_v35 val_main_v12; rfl
/-- The zero matrix the segment sum starts from. -/
theorem zero_mat_eq : val_main_v34 (F := Ideal) = val_main_v11 (F := Ideal) := by
  unfold val_main_v34 val_main_v11 val_main_cst_6 val_main_cst; rfl
/-- The degree count. -/
theorem degree_eq : val_main_v40 (F := Ideal) x1 = val_main_v17 (F := Ideal) x1 := by
  unfold val_main_v40 val_main_v17 val_main_v39 val_main_v16 val_main_v38 val_main_v15 val_main_v37 val_main_v14
    val_main_cst_8 val_main_cst_2 val_main_cst_7 val_main_cst_1; rfl
/-- The clamped degree, spread over the 128 columns. -/
theorem divisor_eq : val_main_v44 (F := Ideal) x1 = val_main_v21 (F := Ideal) x1 := by
  unfold val_main_v44 val_main_v21 val_main_v43 val_main_v20 val_main_v42 val_main_v19 val_main_v41 val_main_v18
    val_main_cst_9 val_main_cst_3
  rw [degree_eq]

theorem second_aggregate :
    val_main_v45 (F := Ideal) x0 x1 x2 x3 = val_main_v22 (F := Ideal) (val_main_v26 (F := Ideal) x0 x1 x2 x3) x1 := by
  generalize hH : val_main_v26 (F := Ideal) x0 x1 x2 x3 = H
  unfold val_main_v45 val_main_v22 val_main_v36 val_main_v13 val_main_v33 val_main_v10
  rw [hH, src_col_eq, dst_col_eq, zero_mat_eq, divisor_eq]

/-! ## The output layer -/

theorem output_eq :
    val_main_v48 (F := Ideal) x0 x1 x2 x3 x4 x5
      = Cert.Sage.output (val_main_v22 (F := Ideal) (val_main_v26 (F := Ideal) x0 x1 x2 x3) x1)
          (val_main_v26 (F := Ideal) x0 x1 x2 x3) x4 x5 := by
  funext i
  rw [val_main_v48_apply, val_main_v46_apply, val_main_v47_apply, second_aggregate]
  unfold Cert.Sage.output Cert.Sage.rowDot
  generalize val_main_v26 (F := Ideal) x0 x1 x2 x3 = H
  generalize val_main_v22 (F := Ideal) H x1 = A
  simp only [Ideal.addf_def, lidx_out_agg, ridx_out_agg, lidx_out_self, ridx_out_self]
  rfl

end Cert.ReferenceIdeal.Layers
end
-- ==== Proof.AggregateBridge.lean ====
/-
  The two programs aggregate alike.

  Both gather the source rows of a feature matrix and sum them into their destination rows, over the same edge columns;
  both clamp the in-degree (a segment sum of ones) below at one. One then multiplies each row by the reciprocal of its
  clamped degree, the other divides by the clamped degree. A broadcast only re-reads its operand at the row's index, so
  entry by entry the two are `s * (1 / d)` and `s / d` with `d` a clamped degree: equal on the extended reals, since
  `d` is not zero.
-/
import proofs.«130391_j50577534878115_1_alg».proof.Proof.HostStretches
import proofs.«130391_j50577534878115_1_alg».proof.Proof.Gen.ReferenceIdeal.Read
import proofs.«130391_j50577534878115_1_alg».proof.Proof.SageLayers
import Idealize.ShloMosaic.Lib.IdealHost

set_option maxRecDepth 16384

noncomputable section

namespace Cert.Bridge

open Idealize.ShloMosaic Idealize.ShloMosaic.TcCoe

/-- Times the twice-broadcast reciprocal of a clamped vector is over the twice-broadcast clamped vector: a broadcast
    re-reads its operand at an index of the operand, and there the law is `s * (1 / max x 1) = s / max x 1`. -/
theorem mul_bcast_recip {s1 s2 s3 : Shape} (d1 : Fin s1.rank → Fin s2.rank) (h1 : s1.BroadcastsInDim s2 d1)
    (d2 : Fin s2.rank → Fin s3.rank) (h2 : s2.BroadcastsInDim s3 d2)
    (S : FVec Ideal s3 .f32) (deg one : FVec Ideal s1 .f32) (hone : ∀ j, one j = 1) :
    mulf (F := Ideal) S (broadcastInDim s3 d2 h2 (broadcastInDim s2 d1 h1 (Host.divf (F := Ideal) one (maximumf (F := Ideal) deg one))))
      = Host.divf (F := Ideal) S (broadcastInDim s3 d2 h2 (broadcastInDim s2 d1 h1 (maximumf (F := Ideal) deg one))) := by
  funext i
  unfold broadcastInDim
  show S i * Ideal.div (one _) (max (deg _) (one _)) = Ideal.div (S i) (max (deg _) (one _))
  rw [hone]
  exact Cert.Sage.mul_recip_clamped _ _

/-- The kernel program's aggregation IS the reference's: the same segment sum over the same edge columns, multiplied by
    the reciprocal of the clamped degree on one side and divided by the clamped degree on the other. -/
theorem aggregate_eq (e : (⟨Cert.KernelIdeal.S2x1600000, .i32⟩ : BufTy).Contents (Elt Ideal))
    (feat : FVec Ideal Cert.KernelIdeal.S100000x128 .f32) :
    Cert.KernelIdeal.Stretches.aggregate e feat = Cert.ReferenceIdeal.Read.val_main_v22 (F := Ideal) feat e := by
  unfold Cert.KernelIdeal.Stretches.aggregate Cert.KernelIdeal.Stretches.recipDegree
  refine (mul_bcast_recip _ _ _ _ _ _ _ (fun _ => Ideal.ofBits_one_f32)).trans ?_
  rfl

end Cert.Bridge

end
-- ==== Proof.lean ====
/- The proof of `Cert.Claim`: a two-layer mean-aggregation graph network, its tiled kernel program against the plain reference.

   Each layer aggregates a node-feature matrix over the edge list (gather the source rows, sum them into their
   destination rows, scale by the clamped in-degree) and then forms `A · Wl + X · Wr`; the first layer clamps the result
   below at zero. The kernel program computes each layer's two products tile by tile, ten tiles of 10000 rows, on values
   it first rounds to half width; read over the extended reals a change of format is the identity and a product into a
   zero accumulator is the plain sum of products, so every tile is the rows of ONE whole-array function (`Cert.Sage.hidden`,
   `Cert.Sage.output`), and the tiles fill the array. The reference computes the same two functions by whole products.
   The only arithmetic difference is in the aggregation: the kernel program multiplies a row by the reciprocal of its
   clamped degree where the reference divides by the clamped degree. A clamped degree is at least one, so it is not
   zero, and off zero the quotient is the product with the inverse, at the infinities too: no finiteness of the inputs is used.

   The three frames: the two kernel programs' are their generated frame certificates; the reference's is its run with the
   result dropped. The idealization rewrote nothing, so `preserves` is trivial. -/
import proofs.«130391_j50577534878115_1_alg».proof.Defs
import proofs.«130391_j50577534878115_1_alg».proof.Proof.Gen.Kernel
import proofs.«130391_j50577534878115_1_alg».proof.Proof.Gen.Kernel.Skeleton
import proofs.«130391_j50577534878115_1_alg».proof.Proof.Gen.Kernel.Launch
import proofs.«130391_j50577534878115_1_alg».proof.Proof.Gen.Kernel.Points
import proofs.«130391_j50577534878115_1_alg».proof.Proof.Gen.Kernel.Frame
import proofs.«130391_j50577534878115_1_alg».proof.Proof.Gen.KernelIdeal
import proofs.«130391_j50577534878115_1_alg».proof.Proof.Gen.KernelIdeal.Skeleton
import proofs.«130391_j50577534878115_1_alg».proof.Proof.Gen.KernelIdeal.Launch
import proofs.«130391_j50577534878115_1_alg».proof.Proof.Gen.KernelIdeal.Points
import proofs.«130391_j50577534878115_1_alg».proof.Proof.Gen.KernelIdeal.Frame
import proofs.«130391_j50577534878115_1_alg».proof.Proof.Gen.ReferenceIdeal
import proofs.«130391_j50577534878115_1_alg».proof.Proof.Gen.Pre_finite_inputs
import proofs.«130391_j50577534878115_1_alg».proof.Proof.Gen.ReferenceIdeal.Run
import proofs.«130391_j50577534878115_1_alg».proof.Proof.Gen.ReferenceIdeal.Read
import proofs.«130391_j50577534878115_1_alg».proof.Proof.KernelResult
import proofs.«130391_j50577534878115_1_alg».proof.Proof.ReferenceLayers
import proofs.«130391_j50577534878115_1_alg».proof.Proof.AggregateBridge
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealized kernel program runs and keeps its arguments. -/
theorem frame_kernel_ideal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the same result: the kernel program's result array
    is the output layer over its own aggregation of the hidden layer, the reference's the same two layers over the
    reference's aggregation, and the two aggregations are one function. -/
theorem algebraic : Cert.algebraic_KernelIdeal_ReferenceIdeal := by
  intro m ρ m' ρ' _ hagree
  refine ⟨fun c => Cert.KernelIdeal.Result.resultOf m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, Cert.ReferenceIdeal.Layers.output_eq, Cert.ReferenceIdeal.Layers.hidden_eq,
    (hagree c).1, (hagree c).2.1, (hagree c).2.2.1, (hagree c).2.2.2.1, (hagree c).2.2.2.2.1, (hagree c).2.2.2.2.2]
  beta_reduce
  unfold Cert.KernelIdeal.Result.resultOf Cert.KernelIdeal.Result.hiddenOf
  rw [Cert.Bridge.aggregate_eq, Cert.Bridge.aggregate_eq]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
